-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S835584 : Shape := ⟨1, ![835584]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S835584 : S_.BroadcastsInDim S835584 (![] : Fin 0 → Fin S835584.rank)
  reducesTo_S835584_S_d0 : S835584.ReducesTo [0] S_

variable [Facts]

def fn_part1 {F : FTy → Type} [FloatOps F] (main_v13 : IVec S_ 1) (main_v16 : IVec S835584 1) : IVec S_ 1 :=
  let main_c_5 : IVec S_ 1 := constantI S_ 1 1#1
  let main_v17 : IVec S_ 1 := (fun x v => Host.reduce IntOp.andi x v reducesTo_S835584_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096 .f32) (main_arg3 : FVec F S835584 .f32) (main_arg4 : IVec S835584 32) (main_arg5 : IVec S835584 32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S835584 .f32 := Host.absf main_arg3
  let main_cst_4 : FVec F S_ .f32 := constant S_ .f32 0x7F800000#32
  let main_v15 : FVec F S835584 .f32 := broadcastInDim S835584 ![] bcast_S_S835584 main_cst_4
  let main_v16 : IVec S835584 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S835584 : Shape := ⟨1, ![835584]⟩
abbrev S_ : Shape := ⟨0, ![]⟩
abbrev S835584x1 : Shape := ⟨2, ![835584, 1]⟩
abbrev S835584x2 : Shape := ⟨2, ![835584, 2]⟩
abbrev S1x4096 : Shape := ⟨2, ![1, 4096]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩

abbrev nBuf : Space → Nat
  | .hbm => 28
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S835584, .f32⟩
  | .hbm, ⟨4, _⟩ => ⟨S835584, .i32⟩
  | .hbm, ⟨5, _⟩ => ⟨S835584, .i32⟩
  | .hbm, ⟨6, _⟩ => ⟨S_, .i32⟩
  | .hbm, ⟨7, _⟩ => ⟨S835584, .i32⟩
  | .hbm, ⟨8, _⟩ => ⟨S835584, .i1⟩
  | .hbm, ⟨9, _⟩ => ⟨S_, .i32⟩
  | .hbm, ⟨10, _⟩ => ⟨S835584, .i32⟩
  | .hbm, ⟨11, _⟩ => ⟨S835584, .i32⟩
  | .hbm, ⟨12, _⟩ => ⟨S835584, .i32⟩
  | .hbm, ⟨13, _⟩ => ⟨S_, .i32⟩
  | .hbm, ⟨14, _⟩ => ⟨S835584, .i32⟩
  | .hbm, ⟨15, _⟩ => ⟨S835584, .i1⟩
  | .hbm, ⟨16, _⟩ => ⟨S_, .i32⟩
  | .hbm, ⟨17, _⟩ => ⟨S835584, .i32⟩
  | .hbm, ⟨18, _⟩ => ⟨S835584, .i32⟩
  | .hbm, ⟨19, _⟩ => ⟨S835584, .i32⟩
  | .hbm, ⟨20, _⟩ => ⟨S835584x1, .i32⟩
  | .hbm, ⟨21, _⟩ => ⟨S835584x1, .i32⟩
  | .hbm, ⟨22, _⟩ => ⟨S835584x2, .i32⟩
  | .hbm, ⟨23, _⟩ => ⟨S4096x4096, .f32⟩
  | .hbm, ⟨24, _⟩ => ⟨S8192x4096, .bf16⟩
  | .hbm, ⟨25, _⟩ => ⟨S4096x4096, .bf16⟩
  | .hbm, ⟨26, _⟩ => ⟨S1x4096, .f32⟩
  | .hbm, ⟨27, _⟩ => ⟨S8192x4096, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S835584 : S_.BroadcastsInDim S835584 (![] : Fin 0 → Fin S835584.rank)
  bcast_S835584_S835584x1_0 : S835584.BroadcastsInDim S835584x1 (![0] : Fin 1 → Fin S835584x1.rank)
  concatenates_S835584x1_S835584x1_S835584x2_d1 : Shape.Concatenates [S835584x1, S835584x1] S835584x2 1
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  scatter_S4096x4096_S835584x2_S835584_n_01_01_1_wf : ScatterDims.WF S4096x4096 S835584x2 S835584 [] [0, 1] [0, 1] 1
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S4096x4096.size a
  hwx0_1 : ∀ i : grid0.Coords, EltTy.bits .bf16 = 32 ∨ (Rect.block (s := S4096x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def scatter_S4096x4096_S835584x2_S835584_n_01_01_1 : ScatterDims S4096x4096 S835584x2 S835584 where
  updateWindowDims := []
  insertedWindowDims := [0, 1]
  scatterDimsToOperandDims := [0, 1]
  indexVectorDim := 1
  wf := scatter_S4096x4096_S835584x2_S835584_n_01_01_1_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v14) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S835584 : Shape := ⟨1, ![835584]⟩
abbrev S_ : Shape := ⟨0, ![]⟩
abbrev S835584x1 : Shape := ⟨2, ![835584, 1]⟩
abbrev S835584x2 : Shape := ⟨2, ![835584, 2]⟩
abbrev S1x4096 : Shape := ⟨2, ![1, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S835584, .f32⟩
  | .hbm, ⟨4, _⟩ => ⟨S835584, .i32⟩
  | .hbm, ⟨5, _⟩ => ⟨S835584, .i32⟩
  | .hbm, ⟨6, _⟩ => ⟨S_, .i32⟩
  | .hbm, ⟨7, _⟩ => ⟨S835584, .i32⟩
  | .hbm, ⟨8, _⟩ => ⟨S835584, .i1⟩
  | .hbm, ⟨9, _⟩ => ⟨S_, .i32⟩
  | .hbm, ⟨10, _⟩ => ⟨S835584, .i32⟩
  | .hbm, ⟨11, _⟩ => ⟨S835584, .i32⟩
  | .hbm, ⟨12, _⟩ => ⟨S835584, .i32⟩
  | .hbm, ⟨13, _⟩ => ⟨S_, .i32⟩
  | .hbm, ⟨14, _⟩ => ⟨S835584, .i32⟩
  | .hbm, ⟨15, _⟩ => ⟨S835584, .i1⟩
  | .hbm, ⟨16, _⟩ => ⟨S_, .i32⟩
  | .hbm, ⟨17, _⟩ => ⟨S835584, .i32⟩
  | .hbm, ⟨18, _⟩ => ⟨S835584, .i32⟩
  | .hbm, ⟨19, _⟩ => ⟨S835584, .i32⟩
  | .hbm, ⟨20, _⟩ => ⟨S835584x1, .i32⟩
  | .hbm, ⟨21, _⟩ => ⟨S835584x1, .i32⟩
  | .hbm, ⟨22, _⟩ => ⟨S835584x2, .i32⟩
  | .hbm, ⟨23, _⟩ => ⟨S4096x4096, .f32⟩
  | .hbm, ⟨24, _⟩ => ⟨S4096x4096, .f32⟩
  | .hbm, ⟨25, _⟩ => ⟨S8192x4096, .f32⟩
  | .hbm, ⟨26, _⟩ => ⟨S1x4096, .f32⟩
  | .hbm, ⟨27, _⟩ => ⟨S8192x4096, .f32⟩
  | .hbm, ⟨28, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S835584 : S_.BroadcastsInDim S835584 (![] : Fin 0 → Fin S835584.rank)
  bcast_S835584_S835584x1_0 : S835584.BroadcastsInDim S835584x1 (![0] : Fin 1 → Fin S835584x1.rank)
  concatenates_S835584x1_S835584x1_S835584x2_d1 : Shape.Concatenates [S835584x1, S835584x1] S835584x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  scatter_S4096x4096_S835584x2_S835584_n_01_01_1_wf : ScatterDims.WF S4096x4096 S835584x2 S835584 [] [0, 1] [0, 1] 1
  dot_S8192x4096_S4096x4096_S8192x4096_1_0_0_1_n_n_wf : DotDims.WF S8192x4096 S4096x4096 S8192x4096 [1] [0] [0] [1] [] []

variable [Facts₀]

def scatter_S4096x4096_S835584x2_S835584_n_01_01_1 : ScatterDims S4096x4096 S835584x2 S835584 where
  updateWindowDims := []
  insertedWindowDims := [0, 1]
  scatterDimsToOperandDims := [0, 1]
  indexVectorDim := 1
  wf := scatter_S4096x4096_S835584x2_S835584_n_01_01_1_wf
def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.TileProduct.lean ====
/-
  One tile of the product, read at an index.

  At a grid point the kernel body holds a block `a` of 512 token rows (all 4096 features), a block `w` of 1024
  weight rows (all 4096 features) and the matching 1024 bias entries `b` as a one-row matrix. It stores
      a ·ᵀ w + b,
  the matrix product contracting the feature axis of both blocks into a zero accumulator, the bias row repeated down
  the 512 rows. Read at row `p` and column `q` over the extended reals this is
      (Σ_k a[p, k] · w[q, k]) + b[0, q]:
  the accumulator's zero is the additive unit, the two shape casts are to the same shape, and the product's
  contraction index, a one-axis index, is re-indexed by its single coordinate.
-/
import proofs.«120268_j84344567759316_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product's operand indices, axis by axis -/

/-- The left factor's row is the output's row. -/
theorem lhs_row (i : S512x1024.Idx) (κ : dot_S512x4096_S1024x4096_S512x1024_1_1_0_0_n_n.contr.Idx) :
    (dot_S512x4096_S1024x4096_S512x1024_1_1_0_0_n_n.lhsIdx i κ 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
/-- The left factor's feature is the contraction coordinate. -/
theorem lhs_feature (i : S512x1024.Idx) (κ : dot_S512x4096_S1024x4096_S512x1024_1_1_0_0_n_n.contr.Idx) :
    (dot_S512x4096_S1024x4096_S512x1024_1_1_0_0_n_n.lhsIdx i κ 1).val = (κ ⟨0, by decide⟩).val :=
  dot_S512x4096_S1024x4096_S512x1024_1_1_0_0_n_n.lhsIdx_val_of_single rfl i κ
/-- The right factor's row is the output's column. -/
theorem rhs_row (i : S512x1024.Idx) (κ : dot_S512x4096_S1024x4096_S512x1024_1_1_0_0_n_n.contr.Idx) :
    (dot_S512x4096_S1024x4096_S512x1024_1_1_0_0_n_n.rhsIdx i κ 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
/-- The right factor's feature is the contraction coordinate. -/
theorem rhs_feature (i : S512x1024.Idx) (κ : dot_S512x4096_S1024x4096_S512x1024_1_1_0_0_n_n.contr.Idx) :
    (dot_S512x4096_S1024x4096_S512x1024_1_1_0_0_n_n.rhsIdx i κ 1).val = (κ ⟨0, by decide⟩).val :=
  dot_S512x4096_S1024x4096_S512x1024_1_1_0_0_n_n.rhsIdx_val_of_single rfl i κ

/-! ## The three non-pointwise pieces at an index -/

/-- The product of a token block with a weight block, both contracted along their features, into a zero accumulator:
    entry (p, q) is the sum over the features of a[p, k] · w[q, k]. -/
theorem product_apply (a : FVec Ideal S512x4096 .bf16) (w : FVec Ideal S1024x4096 .bf16) (p : Fin 512) (q : Fin 1024) :
    matmul dot_S512x4096_S1024x4096_S512x1024_1_1_0_0_n_n none a w (constant (F := Ideal) S512x1024 .f32 0x00000000#32) (ix2 p q)
      = ∑ k : Fin 4096, a (ix2 p k) * w (ix2 q k) := by
  show FloatOps.matmul dot_S512x4096_S1024x4096_S512x1024_1_1_0_0_n_n none a w (constant (F := Ideal) S512x1024 .f32 0x00000000#32) (ix2 p q) = _
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx (ix2 p q) ((contrEquiv1 dot_S512x4096_S1024x4096_S512x1024_1_1_0_0_n_n 4096 rfl rfl).symm k) = ix2 p k := funext fun x => Fin.ext (by
    match x with
    | ⟨0, _⟩ => exact lhs_row _ _
    | ⟨1, _⟩ => exact (lhs_feature _ _).trans hk)
  have er : dot_S512x4096_S1024x4096_S512x1024_1_1_0_0_n_n.rhsIdx (ix2 p q) ((contrEquiv1 dot_S512x4096_S1024x4096_S512x1024_1_1_0_0_n_n 4096 rfl rfl).symm k) = ix2 q k := funext fun x => Fin.ext (by
    match x with
    | ⟨0, _⟩ => exact rhs_row _ _
    | ⟨1, _⟩ => exact (rhs_feature _ _).trans hk)
  rw [el, er]

/-- The bias row repeated down the rows: entry (p, q) is b[0, q]. -/
theorem bias_rows_apply (b : FVec Ideal S1x1024 .f32) (p : Fin 512) (q : Fin 1024) :
    broadcastTo S512x1024 b broadcasts_S1x1024_S512x1024 (ix2 p q) = b (ix2 (0 : Fin 1) q) :=
  broadcastTo_apply b broadcasts_S1x1024_S512x1024 (ix2 p q) (ix2 (0 : Fin 1) q) (fun x => match x with
    | ⟨0, _⟩ => by show 0 = if (1 : Nat) = 1 then 0 else p.val; rw [if_pos rfl]
    | ⟨1, _⟩ => by show q.val = if (1024 : Nat) = 1 then 0 else q.val; rw [if_neg (by decide)])

/-! ## The body's stored value at an index -/

/-- What the body stores, at row `p` and column `q` of the tile: `(Σ_k a[p, k] · w[q, k]) + b[0, q]`. -/
theorem stored_apply (a : Vec Ideal S512x4096 .bf16) (w : Vec Ideal S1024x4096 .bf16) (b : Vec Ideal S1x1024 .f32)
    (p : Fin 512) (q : Fin 1024) :
    k0_pay1 (F := Ideal) a w b (ix2 p q) = (∑ k : Fin 4096, a (ix2 p k) * w (ix2 q k)) + b (ix2 (0 : Fin 1) q) := by
  unfold k0_pay1
  show matmul dot_S512x4096_S1024x4096_S512x1024_1_1_0_0_n_n none (shapeCast S512x4096 a shapeCasts_S512x4096_S512x4096) (shapeCast S1024x4096 w shapeCasts_S1024x4096_S1024x4096)
        (constant (F := Ideal) S512x1024 .f32 0x00000000#32) (ix2 p q)
      + broadcastTo S512x1024 (shapeCast S1x1024 b shapeCasts_S1x1024_S1x1024) broadcasts_S1x1024_S512x1024 (ix2 p q) = _
  rw [shapeCast_self, shapeCast_self, shapeCast_self, product_apply, bias_rows_apply]

end Cert.KernelIdeal.Tile

end
-- ==== Proof.HostPrep.lean ====
/-
  What the host prepares before the call.

  Three arrays reach the call. The tokens, narrowed to a shorter float format: over the extended reals the narrowing
  is the identity, so the call finds the tokens as launched. The weight matrix `W`: the sparse values added into the
  dense matrix at their (row, column) positions (a negative position counted from the end), then narrowed likewise;
  the matrix is kept as the term the program states and never opened. The bias, laid out as a one-row matrix whose
  entry (0, o) is the bias's entry o.
-/
import proofs.«120268_j84344567759316_1_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Affine

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The weight matrix: the sparse values added into the dense matrix at their (row, column) positions, a negative
    position counted from the end, as the program's host operations state it. -/
def weights (x1 : (⟨S4096x4096, .f32⟩ : BufTy).Contents (Elt Ideal)) (x3 : (⟨S835584, .f32⟩ : BufTy).Contents (Elt Ideal))
    (x4 x5 : (⟨S835584, .i32⟩ : BufTy).Contents (Elt Ideal)) : (⟨S4096x4096, .f32⟩ : BufTy).Contents (Elt Ideal) :=
  Host.scatterAdd (F := Ideal) (φ := .f32) scatter_S4096x4096_S835584x2_S835584_n_01_01_1 x1
    (concatenate S835584x2 1
      [⟨S835584x1, broadcastInDim S835584x1 ![0] bcast_S835584_S835584x1_0 (select (cmpi .slt x4 (broadcastInDim S835584 ![] bcast_S_S835584 (constantI S_ 32 0#32))) (addi x4 (broadcastInDim S835584 ![] bcast_S_S835584 (constantI S_ 32 4096#32))) x4)⟩,
       ⟨S835584x1, broadcastInDim S835584x1 ![0] bcast_S835584_S835584x1_0 (select (cmpi .slt x5 (broadcastInDim S835584 ![] bcast_S_S835584 (constantI S_ 32 0#32))) (addi x5 (broadcastInDim S835584 ![] bcast_S_S835584 (constantI S_ 32 4096#32))) x5)⟩]
      concatenates_S835584x1_S835584x1_S835584x2_d1)
    x3

/-- The call finds the tokens as launched: narrowing the format is the identity on the extended reals. -/
theorem tokens_entry (c : Dev nD) :
    (V m c main_v14 : S8192x4096.Idx → EReal) = m ((c : Thread nD τ).loc main_arg0) := by
  dsimp only [V, hostOps0]; after_results; rfl

set_option maxHeartbeats 2000000 in
/-- The call finds the weight matrix the host built: narrowing its format is the identity on the extended reals. -/
theorem weights_entry (c : Dev nD) :
    (V m c main_v15 : S4096x4096.Idx → EReal)
      = weights (m ((c : Thread nD τ).loc main_arg1)) (m ((c : Thread nD τ).loc main_arg3)) (m ((c : Thread nD τ).loc main_arg4)) (m ((c : Thread nD τ).loc main_arg5)) := by
  dsimp only [V, hostOps0]; after_results
  exact funext fun i => truncf_apply
    (weights (m ((c : Thread nD τ).loc main_arg1)) (m ((c : Thread nD τ).loc main_arg3)) (m ((c : Thread nD τ).loc main_arg4)) (m ((c : Thread nD τ).loc main_arg5)))
    bitsLt_bf16_f32 i

/-- The call finds the bias as a one-row matrix. -/
theorem bias_entry (c : Dev nD) :
    (V m c main_v16 : S1x4096.Idx → EReal) = shapeCast S1x4096 (m ((c : Thread nD τ).loc main_arg2)) shapeCasts_S4096_S1x4096 := by
  dsimp only [V, hostOps0]; after_results; rfl

/-- Entry (0, o) of the one-row bias is the bias's entry o. -/
theorem bias_row_apply (b : S4096.Idx → EReal) (o : Fin 4096) :
    shapeCast S1x4096 b shapeCasts_S4096_S1x4096 (ix2 (0 : Fin 1) o) = b (ix1 o) :=
  shapeCast_apply b shapeCasts_S4096_S1x4096 (ix2 (0 : Fin 1) o) (ix1 o) (by
    rw [Shape.rowMajor_val_one, Shape.rowMajor_val_two]
    show o.val = 0 * 4096 + o.val
    omega)

end Cert.KernelIdeal.Affine

end
-- ==== Proof.AffineSpec.lean ====
/-
  The common value of the two programs, as ONE function of three arrays over the extended reals.

  For a token matrix `x` of 8192 rows and 4096 features, a weight matrix `w` of 4096 output rows and 4096
  features, and a bias `b` of 4096 entries, the affine layer's output at row `t` and column `o` is
      y[t, o] = (Σ_k x[t, k] · w[o, k]) + b[o],
  the sum running over the 4096 features in their natural order. The weight matrix enters by ROWS (the
  contraction runs along the second axis of both factors), which is the arrangement the kernel multiplies in;
  the reference multiplies by the transposed matrix, whose entry (k, o) is w[o, k], so its sum has the very
  same terms. Nothing here needs a law of the extended reals beyond re-indexing one finite sum.
-/
import Idealize.ShloMosaic.PureOps.Ideal
import Idealize.ShloMosaic.Lib.ValueIdx

noncomputable section

open scoped BigOperators

namespace Cert.AffineSpec

open Idealize.ShloMosaic Idealize.ShloMosaic.ValueIdx

/-- The token matrix's, the weight matrix's and the bias's index shapes, spelt as literals. -/
abbrev TokShape : Shape := ⟨2, ![8192, 4096]⟩
abbrev WgtShape : Shape := ⟨2, ![4096, 4096]⟩
abbrev BiasShape : Shape := ⟨1, ![4096]⟩

/-- `y[t, o] = (Σ_k x[t, k] · w[o, k]) + b[o]` on the extended reals. -/
def affine (x : FVec Ideal TokShape .f32) (w : FVec Ideal WgtShape .f32) (b : FVec Ideal BiasShape .f32) :
    FVec Ideal TokShape .f32 :=
  fun i => (∑ k : Fin 4096, x (ix2 (i 0) k) * w (ix2 (i 1) k)) + b (ix1 (i 1))

/-- The function at an index given by its two coordinates. -/
theorem affine_ix2 (x : FVec Ideal TokShape .f32) (w : FVec Ideal WgtShape .f32) (b : FVec Ideal BiasShape .f32)
    (t : Fin 8192) (o : Fin 4096) :
    affine x w b (ix2 t o) = (∑ k : Fin 4096, x (ix2 t k) * w (ix2 o k)) + b (ix1 o) := rfl

end Cert.AffineSpec

end
-- ==== Proof.KernelArray.lean ====
/-
  The kernel's result array is the affine layer of its arguments.

  The call finds the tokens, the weight matrix `W` and the bias as a one-row matrix (what the host prepared). It
  runs a grid of 16 × 4 points; point (r, s) reads token rows
  512·r … 512·r + 511, weight rows 1024·s … 1024·s + 1023 and bias entries 1024·s … 1024·s + 1023, and writes the
  512 × 1024 tile at rows 512·r …, columns 1024·s … of the result. By the tile's value (the product along the
  features plus the bias entry) the tile written at point (r, s) is exactly that tile of
      y[t, o] = (Σ_k x[t, k] · W[o, k]) + b[o],
  and the 64 tiles cover the result: row t lies in tile row t / 512, column o in tile column o / 1024. So the
  result array ends as `y`, whole.
-/
import proofs.«120268_j84344567759316_1_alg».proof.Proof.Gen.KernelIdeal.Value
import proofs.«120268_j84344567759316_1_alg».proof.Proof.TileProduct
import proofs.«120268_j84344567759316_1_alg».proof.Proof.HostPrep
import proofs.«120268_j84344567759316_1_alg».proof.Proof.AffineSpec

set_option maxRecDepth 16384

noncomputable section

open scoped BigOperators

namespace Cert.KernelIdeal.Affine

open Cert.KernelIdeal Cert.KernelIdeal.Gen Idealize.ShloMosaic Idealize.ShloMosaic.TcCoe Idealize.SL.Sem
open Idealize.ShloMosaic.ValueIdx
open Idealize.ShloMosaic.Pipeline (Dat)
open Cert.AffineSpec

variable (m : (ℓ : Loc nD τ sig) → Buf (Elt Ideal) ℓ) (ρ : Dev nD → PrngReg)

theorem zero_offsets : (![0, 0] : Fin 2 → Nat) = fun _ => 0 := funext fun a => by fin_cases a <;> rfl

/-! ## One tile is one tile of the affine layer -/

/-- If a token block, a weight block and a bias block are rows 512·r …, rows 1024·s … and entries 1024·s … of three
    arrays, the body's stored tile at (p, q) is the affine layer of those arrays at (512·r + p, 1024·s + q). -/
theorem tile_of_affine (X : S8192x4096.Idx → EReal) (W : S4096x4096.Idx → EReal) (B : S1x4096.Idx → EReal)
    (a : Vec Ideal S512x4096 .bf16) (w : Vec Ideal S1024x4096 .bf16) (b : Vec Ideal S1x1024 .f32)
    (r s : Nat) (hr : r ≤ 15) (hs : s ≤ 3)
    (ha : ∀ (p : Fin 512) (k : Fin 4096), a (ix2 p k) = X (ix2 (⟨r * 512 + p.val, by omega⟩ : Fin 8192) k))
    (hw : ∀ (q : Fin 1024) (k : Fin 4096), w (ix2 q k) = W (ix2 (⟨s * 1024 + q.val, by omega⟩ : Fin 4096) k))
    (hb : ∀ q : Fin 1024, b (ix2 (0 : Fin 1) q) = B (ix2 (0 : Fin 1) (⟨s * 1024 + q.val, by omega⟩ : Fin 4096)))
    (p : Fin 512) (q : Fin 1024) :
    k0_pay1 (F := Ideal) a w b (ix2 p q)
      = affine X W (fun o => B (ix2 (0 : Fin 1) (o 0))) (ix2 (⟨r * 512 + p.val, by omega⟩ : Fin 8192) (⟨s * 1024 + q.val, by omega⟩ : Fin 4096)) := by
  rw [Tile.stored_apply, affine_ix2, hb]
  exact congrArg (· + _) (Finset.sum_congr rfl fun k _ => by rw [ha, hw])

/-! ## The grid -/

/-- The printed index maps, decided over the 64 points: the token window follows the result's tile row, the weight
    and bias windows its tile column, and the tile indices stay in their ranges. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every tile of the 16 × 4 arrangement is some point's. -/
theorem idx_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-! ## What a point writes back -/

/-- Point `t` writes back its tile of the affine layer of the arrays as the call finds them. -/
theorem flushed_eq (c : Dev nD) (t : Fin cfg0.N) :
    (dats m 0 c).flushed 3 t = ((cfg0.win 3).blk t).view.read (Elt Ideal)
      (affine (V m c main_v14) (V m c main_v15) (fun o => V m c main_v16 (ix2 (0 : Fin 1) (o 0)))) := by
  rw [Value.flushed3]
  unfold out0_3
  rw [View.canon_unit_zero zero_offsets]
  simp only [View.ld_unit_zero (S := S512x4096) zero_offsets, View.ld_unit_zero (S := S1024x4096) zero_offsets,
    View.ld_unit_zero (S := S1x1024) zero_offsets]
  obtain ⟨e0, e1, e2, e3, e4, e5, e6, e7⟩ := idx_facts t
  funext j
  have hj0 : (j 0).val < 512 := (j 0).isLt
  have hj1 : (j 1).val < 1024 := (j 1).isLt
  show k0_pay1 (F := Ideal) (iblk m c 0 t) (iblk m c 1 t) (iblk m c 2 t) (ix2 (⟨(j 0).val, hj0⟩ : Fin 512) (⟨(j 1).val, hj1⟩ : Fin 1024))
    = affine (V m c main_v14) (V m c main_v15) (fun o => V m c main_v16 (ix2 (0 : Fin 1) (o 0))) (((cfg0.win 3).blk t).view.emb j)
  have hemb : ((cfg0.win 3).blk t).view.emb j
      = ix2 (⟨win0_3.index t (0 : Fin 2) * 512 + (j 0).val, by omega⟩ : Fin 8192) (⟨win0_3.index t (1 : Fin 2) * 1024 + (j 1).val, by omega⟩ : Fin 4096) := by
    funext x; apply Fin.ext
    match x with
    | ⟨0, _⟩ => show win0_3.index t (0 : Fin 2) * 512 + 1 * (j 0).val = win0_3.index t (0 : Fin 2) * 512 + (j 0).val; omega
    | ⟨1, _⟩ => show win0_3.index t (1 : Fin 2) * 1024 + 1 * (j 1).val = win0_3.index t (1 : Fin 2) * 1024 + (j 1).val; omega
  rw [hemb]
  refine tile_of_affine (V m c main_v14) (V m c main_v15) (V m c main_v16) (iblk m c 0 t) (iblk m c 1 t) (iblk m c 2 t)
    (win0_3.index t (0 : Fin 2)) (win0_3.index t (1 : Fin 2)) e6 e7 ?_ ?_ ?_ ⟨(j 0).val, hj0⟩ ⟨(j 1).val, hj1⟩
  · intro p k
    show V m c main_v14 (((cfg0.win 0).blk t).view.emb (ix2 p k)) = _
    refine congrArg (V m c main_v14) (funext fun x => Fin.ext ?_)
    match x with
    | ⟨0, _⟩ => show win0_0.index t (0 : Fin 2) * 512 + 1 * p.val = win0_3.index t (0 : Fin 2) * 512 + p.val; omega
    | ⟨1, _⟩ => show win0_0.index t (1 : Fin 2) * 4096 + 1 * k.val = k.val; omega
  · intro q k
    show V m c main_v15 (((cfg0.win 1).blk t).view.emb (ix2 q k)) = _
    refine congrArg (V m c main_v15) (funext fun x => Fin.ext ?_)
    match x with
    | ⟨0, _⟩ => show win0_1.index t (0 : Fin 2) * 1024 + 1 * q.val = win0_3.index t (1 : Fin 2) * 1024 + q.val; omega
    | ⟨1, _⟩ => show win0_1.index t (1 : Fin 2) * 4096 + 1 * k.val = k.val; omega
  · intro q
    show V m c main_v16 (((cfg0.win 2).blk t).view.emb (ix2 (0 : Fin 1) q)) = _
    refine congrArg (V m c main_v16) (funext fun x => Fin.ext ?_)
    match x with
    | ⟨0, _⟩ => show win0_2.index t (0 : Fin 2) * 1 + 1 * 0 = 0; omega
    | ⟨1, _⟩ => show win0_2.index t (1 : Fin 2) * 1024 + 1 * q.val = win0_3.index t (1 : Fin 2) * 1024 + q.val; omega

/-! ## The tiles cover the result -/

/-- An index of the result is in point `t`'s tile iff each coordinate is in the tile's range on its axis. -/
theorem mem_tile (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v17).slice (win0_3.rect t)).set ↔ _
  rw [View.set_slice_whole, Rect.mem_set_unit]
  exact Iff.rfl

/-- Row `t` and column `o` of the result lie in the tile at tile row `t / 512`, tile column `o / 1024`. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-! ## The result array -/

/-- The affine layer of the arrays as the call finds them is the affine layer of the arguments and the weight matrix. -/
theorem entry_affine (c : Dev nD) :
    affine (V m c main_v14) (V m c main_v15) (fun o => V m c main_v16 (ix2 (0 : Fin 1) (o 0)))
      = affine (m ((c : Thread nD τ).loc main_arg0))
          (weights (m ((c : Thread nD τ).loc main_arg1)) (m ((c : Thread nD τ).loc main_arg3)) (m ((c : Thread nD τ).loc main_arg4)) (m ((c : Thread nD τ).loc main_arg5)))
          (m ((c : Thread nD τ).loc main_arg2)) := by
  rw [tokens_entry, weights_entry, bias_entry]
  refine congrArg (affine _ _) (funext fun o => ?_)
  exact (bias_row_apply (m ((c : Thread nD τ).loc main_arg2)) (o 0)).trans (congrArg (m ((c : Thread nD τ).loc main_arg2)) (eq_ix1 o).symm)

/-- After the run the result array is the affine layer of the arguments. -/
theorem result_array (c : Dev nD) :
    (dats m 0 c).arrAt 3 cfg0.N
      = affine (m ((c : Thread nD τ).loc main_arg0))
          (weights (m ((c : Thread nD τ).loc main_arg1)) (m ((c : Thread nD τ).loc main_arg3)) (m ((c : Thread nD τ).loc main_arg4)) (m ((c : Thread nD τ).loc main_arg5)))
          (m ((c : Thread nD τ).loc main_arg2)) :=
  ((dats m 0 c).arrAt_eq_of_cover 3 _ (fun t _ => flushed_eq m c t) covered).trans (entry_affine m c)

/-- The kernel's run: it terminates with the result at the affine layer of the arguments, the arguments unchanged. -/
theorem run : θ_run defs (onTc (τ := τ) (main (F := Ideal))) ⟨m, fun _ => 0, ρ⟩ fun r => ∀ c : Dev nD,
      r.2.mem ((c : Thread nD τ).loc main_v17)
        = affine (m ((c : Thread nD τ).loc main_arg0))
            (weights (m ((c : Thread nD τ).loc main_arg1)) (m ((c : Thread nD τ).loc main_arg3)) (m ((c : Thread nD τ).loc main_arg4)) (m ((c : Thread nD τ).loc main_arg5)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_array m c), (h c).2⟩) (Value.run_blocks m ρ)

end Cert.KernelIdeal.Affine

end
-- ==== Proof.ReferenceArray.lean ====
/-
  The reference's result is the affine layer of its arguments.

  The reference builds the weight matrix `W` by adding the sparse values into the dense matrix at their
  (row, column) positions, transposes it, multiplies the token matrix by the transpose contracting the token
  features with the transpose's rows, and adds the bias repeated down the rows. Read at row `t` and column `o`:
  the product's entry is Σ_k x[t, k] · Wᵀ[k, o], the transpose's entry Wᵀ[k, o] is W[o, k], and the repeated
  bias's entry is b[o]. So the result is (Σ_k x[t, k] · W[o, k]) + b[o], term by term the affine layer of
  `x`, `W` and `b`. The scattered matrix itself is left as the term the program states: both programs build it
  by the same operations, so it is never opened.
-/
import proofs.«120268_j84344567759316_1_alg».proof.Proof.Gen.ReferenceIdeal.Read
import proofs.«120268_j84344567759316_1_alg».proof.Proof.AffineSpec

noncomputable section

open scoped BigOperators

namespace Cert.ReferenceIdeal.Affine

open Cert.ReferenceIdeal Cert.ReferenceIdeal.Gen Cert.ReferenceIdeal.Read Idealize.ShloMosaic Idealize.ShloMosaic.ValueIdx
open Cert.AffineSpec

/-- The product's left factor is read at the output's row and the contraction coordinate. -/
theorem left_index (i : S8192x4096.Idx) (k : Fin 4096) : lidx_main_v15 i k = ix2 (i 0) k :=
  funext fun a => by match a with | ⟨0, _⟩ => rfl | ⟨1, _⟩ => rfl

/-- The product's right factor is the transposed weights at (contraction coordinate, output's column), which is the
    weight matrix at (output's column, contraction coordinate). -/
theorem right_index (i : S8192x4096.Idx) (k : Fin 4096) : idx_main_v14 (ridx_main_v15 i k) = ix2 (i 1) k :=
  funext fun a => by match a with | ⟨0, _⟩ => rfl | ⟨1, _⟩ => rfl

/-- The bias, made a one-row matrix and repeated down the rows, is read at the output's column. -/
theorem bias_index (i : S8192x4096.Idx) : idx_main_v16 (idx_main_v17 i) = ix1 (i 1) :=
  funext fun a => by match a with | ⟨0, _⟩ => rfl

/-- The reference's result, as a function of its arguments, is the affine layer of the tokens, the scattered weight
    matrix and the bias. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) (x3 : (⟨S835584, .f32⟩ : BufTy).Contents (Elt Ideal))
    (x4 x5 : (⟨S835584, .i32⟩ : BufTy).Contents (Elt Ideal)) :
    val_main_v18 (F := Ideal) x0 x1 x2 x3 x4 x5 = affine x0 (val_main_v13 (F := Ideal) x1 x3 x4 x5) x2 := by
  funext i
  rw [val_main_v18_apply, val_main_v15_apply, val_main_v17_apply, val_main_v16_apply]
  simp only [val_main_v14_apply, left_index, right_index, bias_index, Ideal.addf_def, affine]
  rfl

end Cert.ReferenceIdeal.Affine

end
-- ==== Proof.lean ====
/-
  A sparse-plus-dense affine layer: the tiled kernel against the one-line reference.

  Both programs first build the same weight matrix `W`: the 835584 sparse values are added into the 4096 × 4096
  dense matrix at their (row, column) positions, a negative position counted from the end. The reference then
  returns x · Wᵀ + b for the 8192 × 4096 token matrix `x` and the bias `b`. The kernel narrows `x` and `W` to a
  shorter float format and computes the same product tile by tile on a 16 × 4 grid: each point multiplies 512
  token rows by 1024 weight rows along all 4096 features, into a zero accumulator, and adds the matching bias entries.

  Over the extended reals a change of float format is the identity and the zero accumulator is the additive unit, so
  entry (t, o) of either result is
      (Σ_k x[t, k] · W[o, k]) + b[o]
  with the terms in the same order: the reference's transposed factor Wᵀ[k, o] is W[o, k]. No law of the extended
  reals beyond re-indexing this one finite sum is used, so the inputs' finiteness is never opened.

  The modules: `AffineSpec` states that function; `TileProduct` reads the kernel body's stored tile at an index;
  `KernelArray` shows each grid point writes its tile of the function and that the 64 tiles cover the result;
  `ReferenceArray` reads the reference's result at an index. Here the two runs are set side by side: they end at the
  same function of arguments that agree, the two weight matrices being one term.
-/
import proofs.«120268_j84344567759316_1_alg».proof.Defs
import proofs.«120268_j84344567759316_1_alg».proof.Proof.Gen.Kernel
import proofs.«120268_j84344567759316_1_alg».proof.Proof.Gen.Kernel.Frame
import proofs.«120268_j84344567759316_1_alg».proof.Proof.Gen.KernelIdeal
import proofs.«120268_j84344567759316_1_alg».proof.Proof.Gen.KernelIdeal.Frame
import proofs.«120268_j84344567759316_1_alg».proof.Proof.Gen.ReferenceIdeal
import proofs.«120268_j84344567759316_1_alg».proof.Proof.Gen.Pre_finite_inputs
import proofs.«120268_j84344567759316_1_alg».proof.Proof.KernelArray
import proofs.«120268_j84344567759316_1_alg».proof.Proof.ReferenceArray
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference has no kernel: its run, with the result forgotten, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The two programs build the weight matrix by the same operations of the same arguments: one term. -/
theorem weights_eq (x1 : (⟨Cert.ReferenceIdeal.S4096x4096, .f32⟩ : BufTy).Contents (Elt Ideal))
    (x3 : (⟨Cert.ReferenceIdeal.S835584, .f32⟩ : BufTy).Contents (Elt Ideal))
    (x4 x5 : (⟨Cert.ReferenceIdeal.S835584, .i32⟩ : BufTy).Contents (Elt Ideal)) :
    Cert.ReferenceIdeal.Read.val_main_v13 (F := Ideal) x1 x3 x4 x5 = Cert.KernelIdeal.Affine.weights x1 x3 x4 x5 := rfl

/-- From arguments that agree, the kernel's result array and the reference's end at the same affine layer of the
    tokens, the weight matrix and the bias. -/
theorem algebraic : Cert.algebraic_KernelIdeal_ReferenceIdeal := by
  intro m ρ m' ρ' _ hagree
  refine ⟨_, Cert.KernelIdeal.Affine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Affine.result_eq, weights_eq,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
